-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000x3 : Shape := ⟨2, ![200000, 3]⟩
abbrev S512x512 : Shape := ⟨2, ![512, 512]⟩
abbrev S512 : Shape := ⟨1, ![512]⟩
abbrev S512x256 : Shape := ⟨2, ![512, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg5 : FVec F S512x256 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S200000x256 .f32) (main_arg1 : FVec F S200000x256 .f32) (main_arg2 : IVec S200000x3 32) (main_arg3 : FVec F S512x512 .f32) (main_arg4 : FVec F S512 .f32) (main_arg5 : FVec F S512x256 .f32) (main_arg6 : FVec F S512 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S200000x256 : Shape := ⟨2, ![200000, 256]⟩
abbrev S200000x3 : Shape := ⟨2, ![200000, 3]⟩
abbrev S512x512 : Shape := ⟨2, ![512, 512]⟩
abbrev S512 : Shape := ⟨1, ![512]⟩
abbrev S512x256 : Shape := ⟨2, ![512, 256]⟩
abbrev S_ : Shape := ⟨0, ![]⟩
abbrev S200000x3x1 : Shape := ⟨3, ![200000, 3, 1]⟩
abbrev S200000x3x256 : Shape := ⟨3, ![200000, 3, 256]⟩
abbrev S256x512 : Shape := ⟨2, ![256, 512]⟩
abbrev S1x512 : Shape := ⟨2, ![1, 512]⟩
abbrev S200000x512 : Shape := ⟨2, ![200000, 512]⟩
abbrev S1000x256 : Shape := ⟨2, ![1000, 256]⟩
abbrev S1000x512 : Shape := ⟨2, ![1000, 512]⟩

abbrev nBuf : Space → Nat
  | .hbm => 27
  | .vmem => 15
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x3, .i32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S512, .f32⟩
  | .hbm, ⟨7, _⟩ => ⟨S_, .i32⟩
  | .hbm, ⟨8, _⟩ => ⟨S200000x3, .i32⟩
  | .hbm, ⟨9, _⟩ => ⟨S200000x3, .i1⟩
  | .hbm, ⟨10, _⟩ => ⟨S_, .i32⟩
  | .hbm, ⟨11, _⟩ => ⟨S200000x3, .i32⟩
  | .hbm, ⟨12, _⟩ => ⟨S200000x3, .i32⟩
  | .hbm, ⟨13, _⟩ => ⟨S200000x3, .i32⟩
  | .hbm, ⟨14, _⟩ => ⟨S200000x3x1, .i32⟩
  | .hbm, ⟨15, _⟩ => ⟨S200000x3x256, .f32⟩
  | .hbm, ⟨16, _⟩ => ⟨S_, .f32⟩
  | .hbm, ⟨17, _⟩ => ⟨S200000x256, .f32⟩
  | .hbm, ⟨18, _⟩ => ⟨S512x256, .f32⟩
  | .hbm, ⟨19, _⟩ => ⟨S256x512, .f32⟩
  | .hbm, ⟨20, _⟩ => ⟨S512x256, .f32⟩
  | .hbm, ⟨21, _⟩ => ⟨S256x512, .f32⟩
  | .hbm, ⟨22, _⟩ => ⟨S256x512, .f32⟩
  | .hbm, ⟨23, _⟩ => ⟨S1x512, .f32⟩
  | .hbm, ⟨24, _⟩ => ⟨S1x512, .f32⟩
  | .hbm, ⟨25, _⟩ => ⟨S200000x512, .f32⟩
  | .hbm, ⟨26, _⟩ => ⟨S200000x512, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S1x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S200000x3 : S_.BroadcastsInDim S200000x3 (![] : Fin 0 → Fin S200000x3.rank)
  bcast_S200000x3_S200000x3x1_0_1 : S200000x3.BroadcastsInDim S200000x3x1 (![0, 1] : Fin 2 → Fin S200000x3x1.rank)
  reducesTo_S200000x3x256_S200000x256_d1 : S200000x3x256.ReducesTo [1] S200000x256
  h_S_ : 0 < S_.numel
  slices_S512x512_S512x256_0_0 : S512x512.Slices ![0, 0] S512x256
  transposes_S512x256_S256x512_1_0 : S512x256.Transposes [1, 0] S256x512
  slices_S512x512_S512x256_0_256 : S512x512.Slices ![0, 256] S512x256
  shapeCasts_S512_S1x512 : S512.ShapeCasts S1x512
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  shapeCasts_S1000x256_S1000x256 : S1000x256.ShapeCasts S1000x256
  gather_S200000x256_S200000x3x1_S200000x3x256_2_0_n_n_0_2_1256_wf : GatherDims.WF S200000x256 S200000x3x1 S200000x3x256 [2] [0] [] [0] [] 2 ![1, 256]
  dot_S1000x256_S256x512_S1000x512_1_0_0_1_n_n_wf : DotDims.WF S1000x256 S256x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S200000x256.size a
  hwx0_0 : ∀ i : grid0.Coords, EltTy.bits .f32 = 32 ∨ (Rect.block (s := S200000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S200000x256.size a
  hwx0_1 : ∀ i : grid0.Coords, EltTy.bits .f32 = 32 ∨ (Rect.block (s := S200000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S200000x256.size a
  hwx0_2 : ∀ i : grid0.Coords, EltTy.bits .f32 = 32 ∨ (Rect.block (s := S200000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x512.size a ≤ S200000x512.size a
  hwx0_8 : ∀ i : grid0.Coords, EltTy.bits .f32 = 32 ∨ (Rect.block (s := S200000x512) S1000x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x512.size a ≤ S200000x512.size a
  hwx0_9 : ∀ i : grid0.Coords, EltTy.bits .f32 = 32 ∨ (Rect.block (s := S200000x512) S1000x512.size (cc0_transform_9 i) (hinb0_9 i)).WholeWords (EltTy.packing .f32)

variable [Facts₀]

def gather_S200000x256_S200000x3x1_S200000x3x256_2_0_n_n_0_2_1256 : GatherDims S200000x256 S200000x3x1 S200000x3x256 where
  offsetDims := [2]
  collapsedSliceDims := [0]
  operandBatchingDims := []
  startIndicesBatchingDims := []
  startIndexMap := [0]
  indexVectorDim := 2
  sliceSizes := ![1, 256]
  wf := gather_S200000x256_S200000x3x1_S200000x3x256_2_0_n_n_0_2_1256_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15_0) S1000x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15_1) S1000x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x256 : Shape := ⟨2, ![200000, 256]⟩
abbrev S200000x3 : Shape := ⟨2, ![200000, 3]⟩
abbrev S512x512 : Shape := ⟨2, ![512, 512]⟩
abbrev S512 : Shape := ⟨1, ![512]⟩
abbrev S512x256 : Shape := ⟨2, ![512, 256]⟩
abbrev S200000x512 : Shape := ⟨2, ![200000, 512]⟩
abbrev S1x512 : Shape := ⟨2, ![1, 512]⟩
abbrev S_ : Shape := ⟨0, ![]⟩
abbrev S200000x3x1 : Shape := ⟨3, ![200000, 3, 1]⟩
abbrev S200000x3x256 : Shape := ⟨3, ![200000, 3, 256]⟩
abbrev S256x512 : Shape := ⟨2, ![256, 512]⟩

abbrev nBuf : Space → Nat
  | .hbm => 33
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000x3, .i32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S512, .f32⟩
  | .hbm, ⟨7, _⟩ => ⟨S200000x512, .f32⟩
  | .hbm, ⟨8, _⟩ => ⟨S512x512, .f32⟩
  | .hbm, ⟨9, _⟩ => ⟨S200000x512, .f32⟩
  | .hbm, ⟨10, _⟩ => ⟨S1x512, .f32⟩
  | .hbm, ⟨11, _⟩ => ⟨S200000x512, .f32⟩
  | .hbm, ⟨12, _⟩ => ⟨S200000x512, .f32⟩
  | .hbm, ⟨13, _⟩ => ⟨S_, .i32⟩
  | .hbm, ⟨14, _⟩ => ⟨S200000x3, .i32⟩
  | .hbm, ⟨15, _⟩ => ⟨S200000x3, .i1⟩
  | .hbm, ⟨16, _⟩ => ⟨S_, .i32⟩
  | .hbm, ⟨17, _⟩ => ⟨S200000x3, .i32⟩
  | .hbm, ⟨18, _⟩ => ⟨S200000x3, .i32⟩
  | .hbm, ⟨19, _⟩ => ⟨S200000x3, .i32⟩
  | .hbm, ⟨20, _⟩ => ⟨S200000x3x1, .i32⟩
  | .hbm, ⟨21, _⟩ => ⟨S200000x3x256, .f32⟩
  | .hbm, ⟨22, _⟩ => ⟨S_, .f32⟩
  | .hbm, ⟨23, _⟩ => ⟨S200000x256, .f32⟩
  | .hbm, ⟨24, _⟩ => ⟨S200000x256, .f32⟩
  | .hbm, ⟨25, _⟩ => ⟨S_, .f32⟩
  | .hbm, ⟨26, _⟩ => ⟨S200000x256, .f32⟩
  | .hbm, ⟨27, _⟩ => ⟨S200000x256, .f32⟩
  | .hbm, ⟨28, _⟩ => ⟨S256x512, .f32⟩
  | .hbm, ⟨29, _⟩ => ⟨S200000x512, .f32⟩
  | .hbm, ⟨30, _⟩ => ⟨S1x512, .f32⟩
  | .hbm, ⟨31, _⟩ => ⟨S200000x512, .f32⟩
  | .hbm, ⟨32, _⟩ => ⟨S200000x512, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  concatenates_S200000x256_S200000x256_S200000x512_d1 : Shape.Concatenates [S200000x256, S200000x256] S200000x512 1
  transposes_S512x512_S512x512_1_0 : S512x512.Transposes [1, 0] S512x512
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x3 : S_.BroadcastsInDim S200000x3 (![] : Fin 0 → Fin S200000x3.rank)
  bcast_S200000x3_S200000x3x1_0_1 : S200000x3.BroadcastsInDim S200000x3x1 (![0, 1] : Fin 2 → Fin S200000x3x1.rank)
  reducesTo_S200000x3x256_S200000x256_d1 : S200000x3x256.ReducesTo [1] S200000x256
  h_S_ : 0 < S_.numel
  bcast_S_S200000x256 : S_.BroadcastsInDim S200000x256 (![] : Fin 0 → Fin S200000x256.rank)
  transposes_S512x256_S256x512_1_0 : S512x256.Transposes [1, 0] S256x512
  dot_S200000x512_S512x512_S200000x512_1_0_0_1_n_n_wf : DotDims.WF S200000x512 S512x512 S200000x512 [1] [0] [0] [1] [] []
  gather_S200000x256_S200000x3x1_S200000x3x256_2_0_n_n_0_2_1256_wf : GatherDims.WF S200000x256 S200000x3x1 S200000x3x256 [2] [0] [] [0] [] 2 ![1, 256]
  dot_S200000x256_S256x512_S200000x512_1_0_0_1_n_n_wf : DotDims.WF S200000x256 S256x512 S200000x512 [1] [0] [0] [1] [] []

variable [Facts₀]

def dot_S200000x512_S512x512_S200000x512_1_0_0_1_n_n : DotDims S200000x512 S512x512 S200000x512 where
  lhsContracting := [1]
  rhsContracting := [0]
  lhsNonContracting := [0]
  rhsNonContracting := [1]
  lhsBatch := []
  rhsBatch := []
  wf := dot_S200000x512_S512x512_S200000x512_1_0_0_1_n_n_wf
def gather_S200000x256_S200000x3x1_S200000x3x256_2_0_n_n_0_2_1256 : GatherDims S200000x256 S200000x3x1 S200000x3x256 where
  offsetDims := [2]
  collapsedSliceDims := [0]
  operandBatchingDims := []
  startIndicesBatchingDims := []
  startIndexMap := [0]
  indexVectorDim := 2
  sliceSizes := ![1, 256]
  wf := gather_S200000x256_S200000x3x1_S200000x3x256_2_0_n_n_0_2_1256_wf
def dot_S200000x256_S256x512_S200000x512_1_0_0_1_n_n : DotDims S200000x256 S256x512 S200000x512 where
  lhsContracting := [1]
  rhsContracting := [0]
  lhsNonContracting := [0]
  rhsNonContracting := [1]
  lhsBatch := []
  rhsBatch := []
  wf := dot_S200000x256_S256x512_S200000x512_1_0_0_1_n_n_wf

class Facts : Prop extends Facts₀ where

variable [Facts]
-- ==== Proof.MeshSpec.lean ====
/-
  The two layers this kernel computes, written once as functions of the argument arrays over the extended reals.

  COMBINE. Row `n` of the concatenation `[out1 | out2]` (512 wide) against row `j` of the weight matrix `W` (512 × 512,
  stored output-channel first), plus the bias: the contraction over the 512 input channels is written already split at
  channel 256, the first half meeting `out1` and the second half `out2`:
      combine[n, j] = Σ_{k<256} out1[n, k] · W[j, k]  +  Σ_{k<256} out2[n, k] · W[j, 256 + k]  +  b[j].
  AGGREGATE. The mean of a row of `out2` with the sum `s` of its three neighbour rows (the factor is the float 0.25, the
  same word in both programs, never evaluated), against row `j` of the aggregation weights (512 × 256), plus the bias:
      aggregate[n, j] = Σ_{k<256} ((out2[n, k] + s[n, k]) · ¼) · A[j, k]  +  b'[j].
  The neighbour sum `s` is an argument here: both programs compute it by the same host operations.

  Also here: a sum over 512 indices is the sum over the first 256 plus the sum over the last 256 (only the monoid laws,
  so it holds on the extended reals without any finiteness).
-/
import Idealize.ShloMosaic.PureOps.Ideal
import Idealize.ShloMosaic.Lib.ValueIdx
import Mathlib.Algebra.BigOperators.Fin

noncomputable section

open scoped BigOperators

namespace Cert.MeshLayer

open Idealize.ShloMosaic Idealize.ShloMosaic.ValueIdx

/-- Input channel `k` of the first half, as one of the 512. -/
abbrev lo (k : Fin 256) : Fin 512 := ⟨k.val, by omega⟩
/-- Input channel `k` of the second half, as one of the 512. -/
abbrev hi (k : Fin 256) : Fin 512 := ⟨256 + k.val, by omega⟩

/-- A sum over the 512 channels is the sum over the first 256 plus the sum over the last 256. -/
theorem sum_halves {M : Type*} [AddCommMonoid M] (f : Fin 512 → M) :
    ∑ k : Fin 512, f k = (∑ k : Fin 256, f (lo k)) + ∑ k : Fin 256, f (hi k) :=
  Fin.sum_univ_add (a := 256) (b := 256) f

/-- The float literal 0.25, as both programs spell it. -/
abbrev quarter : EReal := Ideal.ofBits .f32 0x3E800000#32

/-- The combine layer at output row `n = i 0` and channel `j = i 1`. -/
def combine (x0 x1 : (⟨2, ![200000, 256]⟩ : Shape).Idx → EReal) (w : (⟨2, ![512, 512]⟩ : Shape).Idx → EReal)
    (b : (⟨1, ![512]⟩ : Shape).Idx → EReal) : (⟨2, ![200000, 512]⟩ : Shape).Idx → EReal :=
  fun i => (∑ k : Fin 256, x0 (ix2 (i 0) k) * w (ix2 (i 1) (lo k)))
    + (∑ k : Fin 256, x1 (ix2 (i 0) k) * w (ix2 (i 1) (hi k))) + b (ix1 (i 1))

/-- The aggregate layer at output row `n = i 0` and channel `j = i 1`, over the neighbour sum `s`. -/
def aggregate (x1 s : (⟨2, ![200000, 256]⟩ : Shape).Idx → EReal) (a : (⟨2, ![512, 256]⟩ : Shape).Idx → EReal)
    (b : (⟨1, ![512]⟩ : Shape).Idx → EReal) : (⟨2, ![200000, 512]⟩ : Shape).Idx → EReal :=
  fun i => (∑ k : Fin 256, ((x1 (ix2 (i 0) k) + s (ix2 (i 0) k)) * quarter) * a (ix2 (i 1) k)) + b (ix1 (i 1))

end Cert.MeshLayer

end
-- ==== Proof.RefLayers.lean ====
/-
  The reference program is the two layers of MeshSpec.lean.

  Its first result is `concat(out1, out2) · Wᵀ + b`: at row `n` and channel `j` the contraction runs over the 512 columns of
  the concatenation; a column below 256 reads `out1`, a column from 256 on reads `out2` 256 places earlier, and the
  transposed weight at (k, j) is `W[j, k]`. Cutting the sum at 256 gives `combine`.
  Its second result is `((out2 + s) · ¼) · Aᵀ + b'` with `s` the sum of the three gathered neighbour rows, which is
  `aggregate` over that `s`, term for term.
-/
import proofs.«179255_j14267881357853_1_alg».proof.Proof.Gen.ReferenceIdeal.Read
import proofs.«179255_j14267881357853_1_alg».proof.Proof.MeshSpec
import Idealize.ShloMosaic.Lib.Pipeline.Value

noncomputable section

open scoped BigOperators

namespace Cert.ReferenceIdeal.Layers

open Cert.ReferenceIdeal Cert.ReferenceIdeal.Read Idealize.ShloMosaic Idealize.ShloMosaic.ValueIdx Cert.MeshLayer

/-- A column of the concatenation in the first half reads `out1` at that column. -/
theorem concat_lo (x0 x1 : (⟨S200000x256, .f32⟩ : BufTy).Contents (Elt Ideal)) (i : S200000x512.Idx) (k : Fin 256) :
    val_main_v0 (F := Ideal) x0 x1 (lidx_main_v2 i (lo k)) = x0 (ix2 (i 0) k) := by
  unfold val_main_v0
  exact concatenate_pair_apply_left (t := S200000x512) (1 : Fin 2) x0 x1 Gen.concatenates_S200000x256_S200000x256_S200000x512_d1 (lidx_main_v2 i (lo k)) rfl (ix2 (i 0) k)
    (fun b => match b with | ⟨0, _⟩ => rfl | ⟨1, _⟩ => rfl)

/-- A column of the concatenation in the second half reads `out2` 256 columns earlier. -/
theorem concat_hi (x0 x1 : (⟨S200000x256, .f32⟩ : BufTy).Contents (Elt Ideal)) (i : S200000x512.Idx) (k : Fin 256) :
    val_main_v0 (F := Ideal) x0 x1 (lidx_main_v2 i (hi k)) = x1 (ix2 (i 0) k) := by
  unfold val_main_v0
  exact concatenate_pair_apply_right (t := S200000x512) (1 : Fin 2) x0 x1 Gen.concatenates_S200000x256_S200000x256_S200000x512_d1 (lidx_main_v2 i (hi k)) rfl rfl (ix2 (i 0) k)
    (fun b hb => match b, hb with | ⟨0, _⟩, _ => rfl | ⟨1, _⟩, hb => absurd rfl hb)
    (by show k.val + 256 = 256 + k.val; omega)

/-- The reference's first result is the combine layer. -/
theorem ref_combine (x0 x1 : (⟨S200000x256, .f32⟩ : BufTy).Contents (Elt Ideal)) (x3 : (⟨S512x512, .f32⟩ : BufTy).Contents (Elt Ideal))
    (x4 : (⟨S512, .f32⟩ : BufTy).Contents (Elt Ideal)) :
    val_main_v5 (F := Ideal) x0 x1 x3 x4 = combine x0 x1 x3 x4 := by
  funext i
  rw [val_main_v5_apply, val_main_v2_apply, val_main_v4_apply, val_main_v3_apply, sum_halves]
  simp only [concat_lo, concat_hi, val_main_v1_apply]
  have e1 : ∀ k : Fin 512, idx_main_v1 (ridx_main_v2 i k) = ix2 (i 1) k := fun k => funext fun a => Fin.ext (by
    match a with | ⟨0, _⟩ => rfl | ⟨1, _⟩ => rfl)
  have e2 : idx_main_v3 (idx_main_v4 i) = ix1 (i 1) := funext fun a => Fin.ext (by match a with | ⟨0, _⟩ => rfl)
  simp only [e1, e2]
  rfl

/-- The reference's second result is the aggregate layer over its own neighbour sum. -/
theorem ref_aggregate (x1 : (⟨S200000x256, .f32⟩ : BufTy).Contents (Elt Ideal)) (x2 : (⟨S200000x3, .i32⟩ : BufTy).Contents (Elt Ideal))
    (x5 : (⟨S512x256, .f32⟩ : BufTy).Contents (Elt Ideal)) (x6 : (⟨S512, .f32⟩ : BufTy).Contents (Elt Ideal)) :
    val_main_v21 (F := Ideal) x1 x2 x5 x6 = aggregate x1 (val_main_v13 (F := Ideal) x1 x2) x5 x6 := by
  funext i
  rw [val_main_v21_apply, val_main_v18_apply, val_main_v20_apply, val_main_v19_apply]
  simp only [val_main_v16_apply, val_main_v14_apply, val_main_v15_apply, val_main_cst_1_apply, val_main_v17_apply]
  have e0 : ∀ k : Fin 256, lidx_main_v18 i k = ix2 (i 0) k := fun k => funext fun a => Fin.ext (by
    match a with | ⟨0, _⟩ => rfl | ⟨1, _⟩ => rfl)
  have e1 : ∀ k : Fin 256, idx_main_v17 (ridx_main_v18 i k) = ix2 (i 1) k := fun k => funext fun a => Fin.ext (by
    match a with | ⟨0, _⟩ => rfl | ⟨1, _⟩ => rfl)
  have e2 : idx_main_v19 (idx_main_v20 i) = ix1 (i 1) := funext fun a => Fin.ext (by match a with | ⟨0, _⟩ => rfl)
  simp only [e0, e1, e2]
  rfl

end Cert.ReferenceIdeal.Layers

end
-- ==== Proof.BodyEntries.lean ====
/-
  What the kernel body stores, entry by entry, over the extended reals.

  The body multiplies a 1000 × 256 block by a 256 × 512 weight block three times. An entry (p, q) of such a product into
  a zero accumulator is `Σ_{k<256} l[p, k] · r[k, q]`; the narrowing of the operands to bf16 is the identity on extended
  reals. So the first store holds, at (p, q),
      Σ_k out1blk[p, k] · W1[k, q] + Σ_k out2blk[p, k] · W2[k, q] + b[0, q],
  and the second
      Σ_k ((out2blk[p, k] + sblk[p, k]) · ¼) · A[k, q] + b'[0, q],
  the biases being 1 × 512 rows repeated down the block.
-/
import proofs.«179255_j14267881357853_1_alg».proof.Proof.Gen.KernelIdeal.Skeleton
import proofs.«179255_j14267881357853_1_alg».proof.Proof.MeshSpec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.MeshLayer

/-! ## One entry of a block product -/

theorem lhs_blockdot_0 (i : S1000x512.Idx) (q : dot_S1000x256_S256x512_S1000x512_1_0_0_1_n_n.contr.Idx) :
    (dot_S1000x256_S256x512_S1000x512_1_0_0_1_n_n.lhsIdx i q 0).val = (i 0).val := by
  unfold DotDims.lhsIdx
  rw [dif_neg (show ¬(0 : Fin S1000x256.rank) ∈ dot_S1000x256_S256x512_S1000x512_1_0_0_1_n_n.lhsBatch by decide), dif_pos (show (0 : Fin S1000x256.rank) ∈ dot_S1000x256_S256x512_S1000x512_1_0_0_1_n_n.lhsNonContracting by decide)]
  rfl
theorem lhs_blockdot_1 (i : S1000x512.Idx) (q : dot_S1000x256_S256x512_S1000x512_1_0_0_1_n_n.contr.Idx) :
    (dot_S1000x256_S256x512_S1000x512_1_0_0_1_n_n.lhsIdx i q 1).val = (q ⟨0, by decide⟩).val :=
  dot_S1000x256_S256x512_S1000x512_1_0_0_1_n_n.lhsIdx_val_of_single rfl i q
theorem rhs_blockdot_0 (i : S1000x512.Idx) (q : dot_S1000x256_S256x512_S1000x512_1_0_0_1_n_n.contr.Idx) :
    (dot_S1000x256_S256x512_S1000x512_1_0_0_1_n_n.rhsIdx i q 0).val = (q ⟨0, by decide⟩).val :=
  dot_S1000x256_S256x512_S1000x512_1_0_0_1_n_n.rhsIdx_val_of_single rfl i q
theorem rhs_blockdot_1 (i : S1000x512.Idx) (q : dot_S1000x256_S256x512_S1000x512_1_0_0_1_n_n.contr.Idx) :
    (dot_S1000x256_S256x512_S1000x512_1_0_0_1_n_n.rhsIdx i q 1).val = (i 1).val := by
  unfold DotDims.rhsIdx
  rw [dif_neg (show ¬(1 : Fin S256x512.rank) ∈ dot_S1000x256_S256x512_S1000x512_1_0_0_1_n_n.rhsBatch by decide), dif_pos (show (1 : Fin S256x512.rank) ∈ dot_S1000x256_S256x512_S1000x512_1_0_0_1_n_n.rhsNonContracting by decide)]
  rfl

/-- Entry (p, q) of a block product into a zero accumulator is the sum over the 256 shared channels. -/
theorem blockdot_at {φ₁ φ₂ : FTy} (l : FVec Ideal S1000x256 φ₁) (r : FVec Ideal S256x512 φ₂) (p : Fin 1000) (q : Fin 512) :
    matmul dot_S1000x256_S256x512_S1000x512_1_0_0_1_n_n none l r (constant (F := Ideal) S1000x512 .f32 0x00000000#32) (ix2 p q)
      = ∑ k : Fin 256, l (ix2 p k) * r (ix2 k q) := by
  simp only [matmul]
  rw [Ideal.matmul_constant_zero_apply, ← Equiv.sum_comp (contrEquiv1 dot_S1000x256_S256x512_S1000x512_1_0_0_1_n_n 256 rfl rfl).symm]
  refine Finset.sum_congr rfl fun k _ => ?_
  have hk := contrEquiv1_symm_val dot_S1000x256_S256x512_S1000x512_1_0_0_1_n_n 256 rfl rfl k
  have el : dot_S1000x256_S256x512_S1000x512_1_0_0_1_n_n.lhsIdx (ix2 p q) ((contrEquiv1 dot_S1000x256_S256x512_S1000x512_1_0_0_1_n_n 256 rfl rfl).symm k) = ix2 p k := funext fun a => Fin.ext (by
    match a with
    | ⟨0, _⟩ => exact lhs_blockdot_0 _ _
    | ⟨1, _⟩ => exact (lhs_blockdot_1 _ _).trans hk)
  have er : dot_S1000x256_S256x512_S1000x512_1_0_0_1_n_n.rhsIdx (ix2 p q) ((contrEquiv1 dot_S1000x256_S256x512_S1000x512_1_0_0_1_n_n 256 rfl rfl).symm k) = ix2 k q := funext fun a => Fin.ext (by
    match a with
    | ⟨0, _⟩ => exact (rhs_blockdot_0 _ _).trans hk
    | ⟨1, _⟩ => exact rhs_blockdot_1 _ _)
  rw [el, er]

/-- A 1 × 512 row repeated down a 1000 × 512 block reads the row at the column. -/
theorem bias_row_at (b : Vec Ideal S1x512 .f32) (p : Fin 1000) (q : Fin 512) :
    broadcastTo S1000x512 (shapeCast S1x512 b shapeCasts_S1x512_S1x512) broadcasts_S1x512_S1000x512 (ix2 p q) = b (ix2 0 q) := by
  rw [shapeCast_self]
  exact broadcastTo_apply b broadcasts_S1x512_S1000x512 (ix2 p q) (ix2 0 q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-! ## The two stores -/

/-- The first store at (p, q): the two half-contractions and the bias. -/
theorem combine_block_at (v0 v1 : Vec Ideal S1000x256 .f32) (v4 v7 : Vec Ideal S256x512 .f32) (v13 : Vec Ideal S1x512 .f32)
    (p : Fin 1000) (q : Fin 512) :
    k0_pay1 (F := Ideal) v0 v1 v4 v7 v13 (ix2 p q)
      = (∑ k : Fin 256, v1 (ix2 p k) * v4 (ix2 k q)) + (∑ k : Fin 256, v0 (ix2 p k) * v7 (ix2 k q)) + v13 (ix2 0 q) := by
  unfold k0_pay1
  refine (addf_apply _ _ _).trans ?_
  refine congrArg₂ (· + ·) ((addf_apply _ _ _).trans (congrArg₂ (· + ·) ((blockdot_at _ _ p q).trans ?_) ((blockdot_at _ _ p q).trans ?_))) (bias_row_at v13 p q)
  · simp only [shapeCast_self]; rfl
  · simp only [shapeCast_self]; rfl

/-- The second store at (p, q): the contraction of the averaged rows and the bias. -/
theorem aggregate_block_at (v0 v18 : Vec Ideal S1000x256 .f32) (v24 : Vec Ideal S256x512 .f32) (v28 : Vec Ideal S1x512 .f32)
    (p : Fin 1000) (q : Fin 512) :
    k0_pay2 (F := Ideal) v0 v18 v24 v28 (ix2 p q)
      = (∑ k : Fin 256, ((v0 (ix2 p k) + v18 (ix2 p k)) * quarter) * v24 (ix2 k q)) + v28 (ix2 0 q) := by
  unfold k0_pay2
  refine (addf_apply _ _ _).trans ?_
  refine congrArg₂ (· + ·) ((blockdot_at _ _ p q).trans ?_) (bias_row_at v28 p q)
  simp only [shapeCast_self]; rfl

end Cert.KernelIdeal.Body

end
-- ==== Proof.StagedArrays.lean ====
/-
  What the host operations before the region leave in the arrays the region stages.

  The neighbour sum `s`: the index array with its negative entries moved up by the row count, the rows of `out2` gathered
  at those indices (three per output row), and the three gathered rows added. It is kept here as one named term of
  `out2` and the indices; nothing below looks inside it.
  The three weight blocks are transposes: `W1[k, j] = W[j, k]` and `W2[k, j] = W[j, 256 + k]` (the two column halves of the
  combine weights), and `A'[k, j] = A[j, k]`. The two biases are the 512-vectors laid as one row.
-/
import proofs.«179255_j14267881357853_1_alg».proof.Proof.Gen.KernelIdeal.Frame
import proofs.«179255_j14267881357853_1_alg».proof.Proof.MeshSpec
import Idealize.ShloMosaic.Lib.Pipeline.Value
import Idealize.ShloMosaic.Lib.ValueIdx
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.ValueIdx Cert.MeshLayer

variable {F : FTy → Type} [FloatOps F]

/-! ## The host terms -/

/-- The sum over each row's three neighbours of the gathered rows of `x1`, a negative index counted from the end. -/
def neighSum (x1 : (⟨S200000x256, .f32⟩ : BufTy).Contents (Elt F)) (x2 : (⟨S200000x3, .i32⟩ : BufTy).Contents (Elt F)) :
    (⟨S200000x256, .f32⟩ : BufTy).Contents (Elt F) :=
  Host.reduceAdd (Host.gather gather_S200000x256_S200000x3x1_S200000x3x256_2_0_n_n_0_2_1256 x1
    (broadcastInDim S200000x3x1 ![0, 1] bcast_S200000x3_S200000x3x1_0_1
      (select (cmpi .slt x2 (broadcastInDim S200000x3 ![] bcast_S_S200000x3 (constantI S_ 32 0#32)))
        (addi x2 (broadcastInDim S200000x3 ![] bcast_S_S200000x3 (constantI S_ 32 200000#32))) x2)))
    (constant S_ .f32 0x00000000#32) reducesTo_S200000x3x256_S200000x256_d1 h_S_

/-- The first column half of the combine weights, transposed. -/
def wLo (w : (⟨S512x512, .f32⟩ : BufTy).Contents (Elt F)) : (⟨S256x512, .f32⟩ : BufTy).Contents (Elt F) :=
  transpose S256x512 [1, 0] (extractStridedSlice S512x256 ![0, 0] w slices_S512x512_S512x256_0_0) transposes_S512x256_S256x512_1_0
/-- The second column half of the combine weights, transposed. -/
def wHi (w : (⟨S512x512, .f32⟩ : BufTy).Contents (Elt F)) : (⟨S256x512, .f32⟩ : BufTy).Contents (Elt F) :=
  transpose S256x512 [1, 0] (extractStridedSlice S512x256 ![0, 256] w slices_S512x512_S512x256_0_256) transposes_S512x256_S256x512_1_0
/-- The aggregation weights, transposed. -/
def aT (a : (⟨S512x256, .f32⟩ : BufTy).Contents (Elt F)) : (⟨S256x512, .f32⟩ : BufTy).Contents (Elt F) :=
  transpose S256x512 [1, 0] a transposes_S512x256_S256x512_1_0
/-- A 512-vector as one row. -/
def asRow (b : (⟨S512, .f32⟩ : BufTy).Contents (Elt F)) : (⟨S1x512, .f32⟩ : BufTy).Contents (Elt F) :=
  shapeCast S1x512 b shapeCasts_S512_S1x512

/-! ## The terms at an entry -/

theorem wLo_at (w : (⟨S512x512, .f32⟩ : BufTy).Contents (Elt F)) (k : Fin 256) (q : Fin 512) :
    wLo w (ix2 k q) = w (ix2 q (lo k)) := by
  unfold wLo
  refine (transpose_apply [1, 0] _ transposes_S512x256_S256x512_1_0 (ix2 k q) (ix2 q k) (fun b => match b with
    | ⟨0, _⟩ => rfl
    | ⟨1, _⟩ => rfl)).trans ?_
  exact extractStridedSlice_apply ![0, 0] w slices_S512x512_S512x256_0_0 (ix2 q k) (ix2 q (lo k)) (fun a => match a with
    | ⟨0, _⟩ => by show q.val = 0 + q.val; omega
    | ⟨1, _⟩ => by show k.val = 0 + k.val; omega)

theorem wHi_at (w : (⟨S512x512, .f32⟩ : BufTy).Contents (Elt F)) (k : Fin 256) (q : Fin 512) :
    wHi w (ix2 k q) = w (ix2 q (hi k)) := by
  unfold wHi
  refine (transpose_apply [1, 0] _ transposes_S512x256_S256x512_1_0 (ix2 k q) (ix2 q k) (fun b => match b with
    | ⟨0, _⟩ => rfl
    | ⟨1, _⟩ => rfl)).trans ?_
  exact extractStridedSlice_apply ![0, 256] w slices_S512x512_S512x256_0_256 (ix2 q k) (ix2 q (hi k)) (fun a => match a with
    | ⟨0, _⟩ => by show q.val = 0 + q.val; omega
    | ⟨1, _⟩ => by show 256 + k.val = 256 + k.val; rfl)

theorem aT_at (a : (⟨S512x256, .f32⟩ : BufTy).Contents (Elt F)) (k : Fin 256) (q : Fin 512) :
    aT a (ix2 k q) = a (ix2 q k) := by
  unfold aT
  exact transpose_apply [1, 0] a transposes_S512x256_S256x512_1_0 (ix2 k q) (ix2 q k) (fun b => match b with
    | ⟨0, _⟩ => rfl
    | ⟨1, _⟩ => rfl)

theorem asRow_at (b : (⟨S512, .f32⟩ : BufTy).Contents (Elt F)) (q : Fin 512) :
    asRow b (ix2 0 q) = b (ix1 q) := by
  unfold asRow
  refine shapeCast_apply b shapeCasts_S512_S1x512 (ix2 0 q) (ix1 q) ?_
  rw [Shape.rowMajor_val_one, Shape.rowMajor_val_two]
  show q.val = 0 * 512 + q.val
  omega

/-! ## The staged arrays at region entry -/

variable (m : (ℓ : Loc nD τ sig) → Buf (Elt F) ℓ)

theorem V_neigh (c : Dev nD) : (V m c main_v7 : S200000x256.Idx → Elt F .f32)
    = neighSum (m ((c : Thread nD τ).loc main_arg1)) (m ((c : Thread nD τ).loc main_arg2)) := by
  dsimp only [V, hostOps0]; after_results; rfl

theorem V_wLo (c : Dev nD) : (V m c main_v9 : S256x512.Idx → Elt F .f32) = wLo (m ((c : Thread nD τ).loc main_arg3)) := by
  dsimp only [V, hostOps0]; after_results; rfl

theorem V_wHi (c : Dev nD) : (V m c main_v11 : S256x512.Idx → Elt F .f32) = wHi (m ((c : Thread nD τ).loc main_arg3)) := by
  dsimp only [V, hostOps0]; after_results; rfl

theorem V_aT (c : Dev nD) : (V m c main_v12 : S256x512.Idx → Elt F .f32) = aT (m ((c : Thread nD τ).loc main_arg5)) := by
  dsimp only [V, hostOps0]; after_results; rfl

theorem V_bComb (c : Dev nD) : (V m c main_v13 : S1x512.Idx → Elt F .f32) = asRow (m ((c : Thread nD τ).loc main_arg4)) := by
  dsimp only [V, hostOps0]; after_results; rfl

theorem V_bAgg (c : Dev nD) : (V m c main_v14 : S1x512.Idx → Elt F .f32) = asRow (m ((c : Thread nD τ).loc main_arg6)) := by
  dsimp only [V, hostOps0]; after_results; rfl

end Cert.KernelIdeal.Staged

end
-- ==== Proof.RegionValue.lean ====
/-
  From blocks to arrays: what the region leaves in its two result arrays.

  The grid has 200 points; point `t` handles rows `1000·t … 1000·t + 999`. Its blocks of `out1`, `out2` and the neighbour
  sum are those rows (all 256 columns), the three weight blocks and the two bias rows are the whole arrays at every
  point, and it writes rows `1000·t …` (all 512 columns) of each result. So what a point writes is a block of ONE function
  of the staged arrays — entry (n, j) contracts row `n` of the row-blocked arrays against column `j` of the weights — and
  the 200 row blocks cover every row (row `r` lies in block `r / 1000`). Reading the host-made arrays (StagedArrays.lean)
  turns those functions into the two layers of MeshSpec.lean.
-/
import proofs.«179255_j14267881357853_1_alg».proof.Proof.Gen.KernelIdeal.Value
import proofs.«179255_j14267881357853_1_alg».proof.Proof.BodyEntries
import proofs.«179255_j14267881357853_1_alg».proof.Proof.StagedArrays
import proofs.«179255_j14267881357853_1_alg».proof.Proof.MeshSpec

noncomputable section

open scoped BigOperators

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.MeshLayer

variable (m : (ℓ : Loc nD τ sig) → Buf (Elt Ideal) ℓ) (ρ : Dev nD → PrngReg)

theorem zero_offsets : (![0, 0] : Fin 2 → Nat) = fun _ => 0 := funext fun a => by fin_cases a <;> rfl

/-! ## The region's two results as functions of the arrays it stages -/

/-- Result 0 at (n, j): row `n` of the two row-blocked inputs against column `j` of the two weight blocks, plus the bias row. -/
def stagedCombine (a0 a1 : S200000x256.Idx → EReal) (w1 w2 : S256x512.Idx → EReal) (b : S1x512.Idx → EReal) :
    S200000x512.Idx → EReal :=
  fun i => (∑ k : Fin 256, a0 (ix2 (i 0) k) * w1 (ix2 k (i 1))) + (∑ k : Fin 256, a1 (ix2 (i 0) k) * w2 (ix2 k (i 1)))
    + b (ix2 0 (i 1))

/-- Result 1 at (n, j): row `n` of the averaged input against column `j` of the weight block, plus the bias row. -/
def stagedAggregate (a1 s : S200000x256.Idx → EReal) (w : S256x512.Idx → EReal) (b : S1x512.Idx → EReal) :
    S200000x512.Idx → EReal :=
  fun i => (∑ k : Fin 256, ((a1 (ix2 (i 0) k) + s (ix2 (i 0) k)) * quarter) * w (ix2 k (i 1))) + b (ix2 0 (i 1))

/-! ## The index maps over the grid -/

/-- The row-blocked windows move with result 0's row block and sit at column block 0; the weight and bias windows
    stay at block (0, 0). -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 2) = 0
    ∧ win0_9.index t (0 : Fin 2) = win0_8.index t (0 : Fin 2) ∧ win0_9.index t (1 : Fin 2) = 0 :=
  (by decide +kernel : ∀ t : Fin grid0.N, _)

/-- Every one of the 200 row blocks is some point's, for either result. -/
theorem rows_onto8 : ∀ q0 : Fin 200, ∃ t : Fin cfg0.N, win0_8.index t = ![q0.val, 0] :=
  (by decide +kernel : ∀ q0 : Fin 200, ∃ t : Fin grid0.N, win0_8.index t = ![q0.val, 0])
theorem rows_onto9 : ∀ q0 : Fin 200, ∃ t : Fin cfg0.N, win0_9.index t = ![q0.val, 0] :=
  (by decide +kernel : ∀ q0 : Fin 200, ∃ t : Fin grid0.N, win0_9.index t = ![q0.val, 0])

/-! ## What a point writes back -/

/-- Point `t` writes block `t` of `stagedCombine` of the arrays as the region finds them. -/
theorem flushed8_eq (c : Dev nD) (t : Fin cfg0.N) :
    (dats m 0 c).flushed 8 t = ((cfg0.win 8).blk t).view.read (Elt Ideal)
      (stagedCombine (V m c main_arg0) (V m c main_arg1) (V m c main_v9) (V m c main_v11) (V m c main_v13)) := by
  rw [Value.flushed8]
  unfold out0_8
  rw [View.canon_unit_zero zero_offsets]
  simp only [View.ld_unit_zero (S := S1000x256) zero_offsets, View.ld_unit_zero (S := S256x512) zero_offsets,
    View.ld_unit_zero (S := S1x512) zero_offsets]
  obtain ⟨e00, e01, e10, e11, e20, e21, e30, e31, e40, e41, e50, e51, e60, e61, e70, e71, e81, e90, e91⟩ := idx_facts t
  funext j
  obtain ⟨p, q, rfl⟩ : ∃ (p : Fin 1000) (q : Fin 512), j = ix2 p q := ⟨j 0, j 1, eq_ix2 j⟩
  show k0_pay1 (F := Ideal) (iblk m c 1 t) (iblk m c 0 t) (iblk m c 3 t) (iblk m c 4 t) (iblk m c 6 t) (ix2 p q) = _
  refine (Body.combine_block_at (iblk m c 1 t) (iblk m c 0 t) (iblk m c 3 t) (iblk m c 4 t) (iblk m c 6 t) p q).trans ?_
  show _ = stagedCombine (V m c main_arg0) (V m c main_arg1) (V m c main_v9) (V m c main_v11) (V m c main_v13)
    (((cfg0.win 8).blk t).view.emb (ix2 p q))
  unfold stagedCombine
  refine congrArg₂ (· + ·) (congrArg₂ (· + ·) (Finset.sum_congr rfl fun k _ => congrArg₂ (· * ·) ?_ ?_)
    (Finset.sum_congr rfl fun k _ => congrArg₂ (· * ·) ?_ ?_)) ?_
  · show V m c main_arg0 (((cfg0.win 0).blk t).view.emb (ix2 p k)) = _
    refine congrArg (V m c main_arg0) (funext fun a => Fin.ext ?_)
    match a with
    | ⟨0, _⟩ => show win0_0.index t (0 : Fin 2) * 1000 + 1 * p.val = win0_8.index t (0 : Fin 2) * 1000 + 1 * p.val; omega
    | ⟨1, _⟩ => show win0_0.index t (1 : Fin 2) * 256 + 1 * k.val = k.val; omega
  · show V m c main_v9 (((cfg0.win 3).blk t).view.emb (ix2 k q)) = _
    refine congrArg (V m c main_v9) (funext fun a => Fin.ext ?_)
    match a with
    | ⟨0, _⟩ => show win0_3.index t (0 : Fin 2) * 256 + 1 * k.val = k.val; omega
    | ⟨1, _⟩ => show win0_3.index t (1 : Fin 2) * 512 + 1 * q.val = win0_8.index t (1 : Fin 2) * 512 + 1 * q.val; omega
  · show V m c main_arg1 (((cfg0.win 1).blk t).view.emb (ix2 p k)) = _
    refine congrArg (V m c main_arg1) (funext fun a => Fin.ext ?_)
    match a with
    | ⟨0, _⟩ => show win0_1.index t (0 : Fin 2) * 1000 + 1 * p.val = win0_8.index t (0 : Fin 2) * 1000 + 1 * p.val; omega
    | ⟨1, _⟩ => show win0_1.index t (1 : Fin 2) * 256 + 1 * k.val = k.val; omega
  · show V m c main_v11 (((cfg0.win 4).blk t).view.emb (ix2 k q)) = _
    refine congrArg (V m c main_v11) (funext fun a => Fin.ext ?_)
    match a with
    | ⟨0, _⟩ => show win0_4.index t (0 : Fin 2) * 256 + 1 * k.val = k.val; omega
    | ⟨1, _⟩ => show win0_4.index t (1 : Fin 2) * 512 + 1 * q.val = win0_8.index t (1 : Fin 2) * 512 + 1 * q.val; omega
  · show V m c main_v13 (((cfg0.win 6).blk t).view.emb (ix2 0 q)) = _
    refine congrArg (V m c main_v13) (funext fun a => Fin.ext ?_)
    match a with
    | ⟨0, _⟩ => show win0_6.index t (0 : Fin 2) * 1 + 1 * 0 = 0; omega
    | ⟨1, _⟩ => show win0_6.index t (1 : Fin 2) * 512 + 1 * q.val = win0_8.index t (1 : Fin 2) * 512 + 1 * q.val; omega

/-- Point `t` writes block `t` of `stagedAggregate` of the arrays as the region finds them. -/
theorem flushed9_eq (c : Dev nD) (t : Fin cfg0.N) :
    (dats m 0 c).flushed 9 t = ((cfg0.win 9).blk t).view.read (Elt Ideal)
      (stagedAggregate (V m c main_arg1) (V m c main_v7) (V m c main_v12) (V m c main_v14)) := by
  rw [Value.flushed9]
  unfold out0_9
  rw [View.canon_unit_zero zero_offsets]
  simp only [View.ld_unit_zero (S := S1000x256) zero_offsets, View.ld_unit_zero (S := S256x512) zero_offsets,
    View.ld_unit_zero (S := S1x512) zero_offsets]
  obtain ⟨e00, e01, e10, e11, e20, e21, e30, e31, e40, e41, e50, e51, e60, e61, e70, e71, e81, e90, e91⟩ := idx_facts t
  funext j
  obtain ⟨p, q, rfl⟩ : ∃ (p : Fin 1000) (q : Fin 512), j = ix2 p q := ⟨j 0, j 1, eq_ix2 j⟩
  show k0_pay2 (F := Ideal) (iblk m c 1 t) (iblk m c 2 t) (iblk m c 5 t) (iblk m c 7 t) (ix2 p q) = _
  refine (Body.aggregate_block_at (iblk m c 1 t) (iblk m c 2 t) (iblk m c 5 t) (iblk m c 7 t) p q).trans ?_
  show _ = stagedAggregate (V m c main_arg1) (V m c main_v7) (V m c main_v12) (V m c main_v14)
    (((cfg0.win 9).blk t).view.emb (ix2 p q))
  unfold stagedAggregate
  refine congrArg₂ (· + ·) (Finset.sum_congr rfl fun k _ => congrArg₂ (· * ·) (congrArg (· * quarter) (congrArg₂ (· + ·) ?_ ?_)) ?_) ?_
  · show V m c main_arg1 (((cfg0.win 1).blk t).view.emb (ix2 p k)) = _
    refine congrArg (V m c main_arg1) (funext fun a => Fin.ext ?_)
    match a with
    | ⟨0, _⟩ => show win0_1.index t (0 : Fin 2) * 1000 + 1 * p.val = win0_9.index t (0 : Fin 2) * 1000 + 1 * p.val; omega
    | ⟨1, _⟩ => show win0_1.index t (1 : Fin 2) * 256 + 1 * k.val = k.val; omega
  · show V m c main_v7 (((cfg0.win 2).blk t).view.emb (ix2 p k)) = _
    refine congrArg (V m c main_v7) (funext fun a => Fin.ext ?_)
    match a with
    | ⟨0, _⟩ => show win0_2.index t (0 : Fin 2) * 1000 + 1 * p.val = win0_9.index t (0 : Fin 2) * 1000 + 1 * p.val; omega
    | ⟨1, _⟩ => show win0_2.index t (1 : Fin 2) * 256 + 1 * k.val = k.val; omega
  · show V m c main_v12 (((cfg0.win 5).blk t).view.emb (ix2 k q)) = _
    refine congrArg (V m c main_v12) (funext fun a => Fin.ext ?_)
    match a with
    | ⟨0, _⟩ => show win0_5.index t (0 : Fin 2) * 256 + 1 * k.val = k.val; omega
    | ⟨1, _⟩ => show win0_5.index t (1 : Fin 2) * 512 + 1 * q.val = win0_9.index t (1 : Fin 2) * 512 + 1 * q.val; omega
  · show V m c main_v14 (((cfg0.win 7).blk t).view.emb (ix2 0 q)) = _
    refine congrArg (V m c main_v14) (funext fun a => Fin.ext ?_)
    match a with
    | ⟨0, _⟩ => show win0_7.index t (0 : Fin 2) * 1 + 1 * 0 = 0; omega
    | ⟨1, _⟩ => show win0_7.index t (1 : Fin 2) * 512 + 1 * q.val = win0_9.index t (1 : Fin 2) * 512 + 1 * q.val; omega

/-! ## The row blocks cover the results -/

theorem mem_blk8 (t : Fin cfg0.N) (i : S200000x512.Idx) :
    i ∈ ((cfg0.win 8).blk t).view.set ↔ ∀ a : Fin 2, win0_8.index t a * S1000x512.size a ≤ (i a).val ∧ (i a).val < win0_8.index t a * S1000x512.size a + S1000x512.size a := by
  show i ∈ ((View.whole main_v15_0).slice (win0_8.rect t)).set ↔ _
  rw [View.set_slice_whole, Rect.mem_set_unit]
  exact Iff.rfl

theorem mem_blk9 (t : Fin cfg0.N) (i : S200000x512.Idx) :
    i ∈ ((cfg0.win 9).blk t).view.set ↔ ∀ a : Fin 2, win0_9.index t a * S1000x512.size a ≤ (i a).val ∧ (i a).val < win0_9.index t a * S1000x512.size a + S1000x512.size a := by
  show i ∈ ((View.whole main_v15_1).slice (win0_9.rect t)).set ↔ _
  rw [View.set_slice_whole, Rect.mem_set_unit]
  exact Iff.rfl

/-- Row `r` of result 0 lies in the block of the point whose row block is `r / 1000`. -/
theorem cover8 (i : S200000x512.Idx) : ∃ t : Fin cfg0.N, (cfg0.win 8).flush t = true ∧ i ∈ ((cfg0.win 8).blk t).view.set := by
  have hi0 : (i 0).val < 200000 := (i 0).isLt
  have hi1 : (i 1).val < 512 := (i 1).isLt
  obtain ⟨t, ht⟩ := rows_onto8 ⟨(i 0).val / 1000, by omega⟩
  have q0 : win0_8.index t (0 : Fin 2) = (i 0).val / 1000 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 1000 ≤ (i 0).val ∧ (i 0).val < win0_8.index t (0 : Fin 2) * 1000 + 1000; omega
  | ⟨1, _⟩ => show win0_8.index t (1 : Fin 2) * 512 ≤ (i 1).val ∧ (i 1).val < win0_8.index t (1 : Fin 2) * 512 + 512; omega

/-- The same for result 1. -/
theorem cover9 (i : S200000x512.Idx) : ∃ t : Fin cfg0.N, (cfg0.win 9).flush t = true ∧ i ∈ ((cfg0.win 9).blk t).view.set := by
  have hi0 : (i 0).val < 200000 := (i 0).isLt
  have hi1 : (i 1).val < 512 := (i 1).isLt
  obtain ⟨t, ht⟩ := rows_onto9 ⟨(i 0).val / 1000, by omega⟩
  have q0 : win0_9.index t (0 : Fin 2) = (i 0).val / 1000 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 512 ≤ (i 1).val ∧ (i 1).val < win0_9.index t (1 : Fin 2) * 512 + 512; omega

/-! ## The result arrays after the run -/

theorem final8 (c : Dev nD) : (dats m 0 c).arrAt 8 cfg0.N
    = stagedCombine (V m c main_arg0) (V m c main_arg1) (V m c main_v9) (V m c main_v11) (V m c main_v13) :=
  (dats m 0 c).arrAt_eq_of_cover 8 _ (fun t _ => flushed8_eq m c t) cover8

theorem final9 (c : Dev nD) : (dats m 0 c).arrAt 9 cfg0.N
    = stagedAggregate (V m c main_arg1) (V m c main_v7) (V m c main_v12) (V m c main_v14) :=
  (dats m 0 c).arrAt_eq_of_cover 9 _ (fun t _ => flushed9_eq m c t) cover9

/-- Over the host-made arrays, result 0 is the combine layer of the arguments: the transposed column halves of the
    weights read back as `W[j, k]` and `W[j, 256 + k]`. -/
theorem staged_combine_eq (c : Dev nD) :
    stagedCombine (V m c main_arg0) (V m c main_arg1) (V m c main_v9) (V m c main_v11) (V m c main_v13)
      = combine (m ((c : Thread nD τ).loc main_arg0)) (m ((c : Thread nD τ).loc main_arg1))
          (m ((c : Thread nD τ).loc main_arg3)) (m ((c : Thread nD τ).loc main_arg4)) := by
  rw [V_main_arg0, V_main_arg1, Staged.V_wLo, Staged.V_wHi, Staged.V_bComb]
  funext i
  unfold stagedCombine combine
  refine congrArg₂ (· + ·) (congrArg₂ (· + ·) (Finset.sum_congr rfl fun k _ => congrArg₂ (· * ·) rfl ?_)
    (Finset.sum_congr rfl fun k _ => congrArg₂ (· * ·) rfl ?_)) ?_
  · exact Staged.wLo_at _ k (i 1)
  · exact Staged.wHi_at _ k (i 1)
  · exact Staged.asRow_at _ (i 1)

/-- Over the host-made arrays, result 1 is the aggregate layer of the arguments over the host's neighbour sum. -/
theorem staged_aggregate_eq (c : Dev nD) :
    stagedAggregate (V m c main_arg1) (V m c main_v7) (V m c main_v12) (V m c main_v14)
      = aggregate (m ((c : Thread nD τ).loc main_arg1))
          (Staged.neighSum (m ((c : Thread nD τ).loc main_arg1)) (m ((c : Thread nD τ).loc main_arg2)))
          (m ((c : Thread nD τ).loc main_arg5)) (m ((c : Thread nD τ).loc main_arg6)) := by
  rw [V_main_arg1, Staged.V_neigh, Staged.V_aT, Staged.V_bAgg]
  funext i
  unfold stagedAggregate aggregate
  refine congrArg₂ (· + ·) (Finset.sum_congr rfl fun k _ => congrArg₂ (· * ·) rfl ?_) ?_
  · exact Staged.aT_at _ k (i 1)
  · exact Staged.asRow_at _ (i 1)

/-! ## The run -/

/-- Every weakly fair execution of the idealized kernel program terminates with its two results at the two layers of
    the arguments, the arguments unchanged. -/
theorem run : θ_run defs (onTc (τ := τ) (main (F := Ideal))) ⟨m, fun _ => 0, ρ⟩ fun r => ∀ c : Dev nD,
      r.2.mem ((c : Thread nD τ).loc main_v15_0) = combine (m ((c : Thread nD τ).loc main_arg0)) (m ((c : Thread nD τ).loc main_arg1))
          (m ((c : Thread nD τ).loc main_arg3)) (m ((c : Thread nD τ).loc main_arg4))
      ∧ r.2.mem ((c : Thread nD τ).loc main_v15_1) = aggregate (m ((c : Thread nD τ).loc main_arg1))
          (Staged.neighSum (m ((c : Thread nD τ).loc main_arg1)) (m ((c : Thread nD τ).loc main_arg2)))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final8 m c).trans (staged_combine_eq m c)),
      (h c).2.1.trans ((final9 m c).trans (staged_aggregate_eq m c)), (h c).2.2⟩)
    (Value.run_blocks m ρ)

end Cert.KernelIdeal.Region

end
-- ==== Proof.lean ====
/-
  A graph layer over 200000 mesh rows, in two results, certified equal to its reference program over the extended reals.

  COMBINE:   result 0 = [out1 | out2] · Wᵀ + b, with W of size 512 × 512.
  AGGREGATE: result 1 = ((out2 + s) · ¼) · Aᵀ + b', where s[n] is the sum of the three rows of out2 that row n's
             neighbour indices name (a negative index counted from the end), and A is 512 × 256.

  The kernel computes s with the same host operations as the reference, pre-transposes the weights on the host, cuts W
  into its two column halves, and in one region of 200 row blocks forms
      out1blk · W1 + out2blk · W2 + b      and      ((out2blk + sblk) · ¼) · A' + b'
  with products into zero accumulators. Over the extended reals a product entry is the plain sum over the shared axis
  (the bf16 narrowing of the operands is the identity), so the only mathematics is: a contraction over the 512 columns
  of the concatenation is the contraction over the first 256 (which are out1's) plus the contraction over the last 256
  (which are out2's). That uses only associativity and commutativity of the sum, so no finiteness of the inputs is
  needed and the precondition is never opened. The aggregate side agrees term for term.

  MeshSpec.lean states the two layers; RefLayers.lean shows the reference computes them; BodyEntries.lean reads the
  kernel body's two stores entry by entry; StagedArrays.lean reads the host-made arrays; RegionValue.lean passes from
  the 200 blocks to the whole result arrays. Here the two runs are set side by side.
-/
import proofs.«179255_j14267881357853_1_alg».proof.Defs
import proofs.«179255_j14267881357853_1_alg».proof.Proof.Gen.Kernel
import proofs.«179255_j14267881357853_1_alg».proof.Proof.Gen.Kernel.Skeleton
import proofs.«179255_j14267881357853_1_alg».proof.Proof.Gen.Kernel.Launch
import proofs.«179255_j14267881357853_1_alg».proof.Proof.Gen.Kernel.Points
import proofs.«179255_j14267881357853_1_alg».proof.Proof.Gen.Kernel.Frame
import proofs.«179255_j14267881357853_1_alg».proof.Proof.Gen.KernelIdeal
import proofs.«179255_j14267881357853_1_alg».proof.Proof.Gen.KernelIdeal.Skeleton
import proofs.«179255_j14267881357853_1_alg».proof.Proof.Gen.KernelIdeal.Launch
import proofs.«179255_j14267881357853_1_alg».proof.Proof.Gen.KernelIdeal.Points
import proofs.«179255_j14267881357853_1_alg».proof.Proof.Gen.KernelIdeal.Frame
import proofs.«179255_j14267881357853_1_alg».proof.Proof.Gen.ReferenceIdeal
import proofs.«179255_j14267881357853_1_alg».proof.Proof.Gen.Pre_finite_inputs
import proofs.«179255_j14267881357853_1_alg».proof.Proof.Gen.KernelIdeal.Value
import proofs.«179255_j14267881357853_1_alg».proof.Proof.Gen.ReferenceIdeal.Run
import proofs.«179255_j14267881357853_1_alg».proof.Proof.Gen.ReferenceIdeal.Read
import proofs.«179255_j14267881357853_1_alg».proof.Proof.RefLayers
import proofs.«179255_j14267881357853_1_alg».proof.Proof.RegionValue
import Idealize.ShloMosaic.Adequacy
import Idealize.ShloMosaic.Init

noncomputable section

namespace Cert.Proof

open Idealize.ShloMosaic Idealize.SL.Sem Cert.Kernel

/-- The two programs form the neighbour sum by the same operations: the kernel program's term is the reference's. -/
theorem neigh_same (x1 : (⟨Cert.ReferenceIdeal.S200000x256, .f32⟩ : BufTy).Contents (Elt Ideal))
    (x2 : (⟨Cert.ReferenceIdeal.S200000x3, .i32⟩ : BufTy).Contents (Elt Ideal)) :
    Cert.KernelIdeal.Staged.neighSum (F := Ideal) x1 x2 = Cert.ReferenceIdeal.Read.val_main_v13 (F := Ideal) x1 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with result 0 at the combine layer and result 1 at the
    aggregate layer of those arguments. -/
theorem algebraic : Cert.algebraic_KernelIdeal_ReferenceIdeal := by
  intro m ρ m' ρ' _ hagree
  refine ⟨_, _, Cert.KernelIdeal.Region.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v5_eq, h0, h1, h3, h4]
    exact Cert.ReferenceIdeal.Layers.ref_combine _ _ _ _
  · obtain ⟨h0, h1, h2, h3, h4, h5, h6⟩ := hagree c
    rw [Cert.ReferenceIdeal.Read.val_main_v21_eq, h1, h2, h5, h6, Cert.ReferenceIdeal.Layers.ref_aggregate, ← neigh_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
